-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S3x16384 : Shape := ⟨2, ![3, 16384]⟩
abbrev S16x1x1024 : Shape := ⟨3, ![16, 1, 1024]⟩
abbrev S1024x3 : Shape := ⟨2, ![1024, 3]⟩
abbrev S1x1x1024 : Shape := ⟨3, ![1, 1, 1024]⟩
abbrev S1024x1 : Shape := ⟨2, ![1024, 1]⟩
abbrev S3x1024 : Shape := ⟨2, ![3, 1024]⟩
abbrev S1024x1024 : Shape := ⟨2, ![1024, 1024]⟩
abbrev S1x1024 : Shape := ⟨2, ![1, 1024]⟩
abbrev S1024 : Shape := ⟨1, ![1024]⟩
abbrev S16384 : Shape := ⟨1, ![16384]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S3x16384, .f32⟩
  | .hbm, ⟨3, _⟩ => ⟨S16x1x1024, .f32⟩
  | .hbm, ⟨4, _⟩ => ⟨S16384, .f32⟩
  | .hbm, ⟨5, _⟩ => ⟨S_, .f32⟩
  | .hbm, ⟨6, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S3x16384, .f32⟩
  | .local _ .vmem, ⟨3, _⟩ => ⟨S1x1x1024, .f32⟩
  | .local _ .vmem, ⟨4, _⟩ => ⟨S1x1x1024, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32 : BitVec 32 := 1024#32
  let v6 : BitVec 32 := Scalar.muli arg4 c1024_i32
  v6
def k0_off1 (k0_t1 : Fin k0_t1_loop.trips) : Fin 2 → Nat :=
  let c0_3 : Index := 0#32
  let c0_i32 : BitVec 32 := 0#32
  let c1_i32 : BitVec 32 := 1#32
  let arg4 : BitVec 32 := Scf.iv c0_i32 c1_i32 k0_t1
  let c1024_i32 : BitVec 32 := 1024#32
  let v6 : BitVec 32 := Scalar.muli arg4 c1024_i32
  let v7 : BitVec 32 := v6
  let v8 : Index := Scalar.indexCast v7
  ![0, v8.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16384x3_S3x16384_1_0 : S16384x3.Transposes [1, 0] S3x16384
  h_S3x1024 : 0 < S3x1024.numel
  shapeCasts_S3x1024_S3x1024 : S3x1024.ShapeCasts S3x1024
  inb_S1024x3_S1024x1_0_0 : ∀ a, (![0, 0] : Fin 2 → Nat) a + S1024x1.size a ≤ S1024x3.size a
  h_S1024x1 : 0 < S1024x1.numel
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  inb_S1024x3_S1024x1_0_1 : ∀ a, (![0, 1] : Fin 2 → Nat) a + S1024x1.size a ≤ S1024x3.size a
  slices_S3x1024_o1_0_S1x1024 : S3x1024.Slices ![1, 0] S1x1024
  inb_S1024x3_S1024x1_0_2 : ∀ a, (![0, 2] : Fin 2 → Nat) a + S1024x1.size a ≤ S1024x3.size a
  slices_S3x1024_o2_0_S1x1024 : S3x1024.Slices ![2, 0] S1x1024
  reduces_S1024x1024_S1024 : S1024x1024.Reduces [1] S1024
  shapeCasts_S1024_S1024x1 : S1024.ShapeCasts S1024x1
  transposes_S1024x1_p1_0_S1x1024 : S1024x1.Transposes [1, 0] S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x1024_S16384 : S16x1x1024.ShapeCasts S16384
  reducesTo_S16384_S_d0 : S16384.ReducesTo [0] S_
  h_S_ : 0 < S_.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S3x1024.size a ≤ S3x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16384.size a ≤ S3x16384.size a
  hwx0_1 : ∀ i : grid0.Coords, EltTy.bits .f32 = 32 ∨ (Rect.block (s := S3x16384) S3x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x1024.size a
  hwx0_2 : ∀ i : grid0.Coords, EltTy.bits .f32 = 32 ∨ (Rect.block (s := S16x1x1024) S1x1x1024.size (cc0_transform_2 i) (hinb0_2 i)).WholeWords (EltTy.packing .f32)

variable [Facts₀]

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S3x16384 : Shape := ⟨2, ![3, 16384]⟩
abbrev S16384x16384 : Shape := ⟨2, ![16384, 16384]⟩
abbrev S1x16384 : Shape := ⟨2, ![1, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S3x16384, .f32⟩
  | .hbm, ⟨10, _⟩ => ⟨S16384x16384, .f32⟩
  | .hbm, ⟨11, _⟩ => ⟨S_, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S1x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  transposes_S16384x3_S3x16384_1_0 : S16384x3.Transposes [1, 0] S3x16384
  bcast_S_S16384x16384 : S_.BroadcastsInDim S16384x16384 (![] : Fin 0 → Fin S16384x16384.rank)
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  reducesTo_S16384x16384_S16384_d1 : S16384x16384.ReducesTo [1] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.NearestSq.lean ====
/-
  The arithmetic behind the nearest-neighbour squared distance, free of any program.

  For points of ℝ³ the squared distance summed coordinate by coordinate,
  (a₀-b₀)² + (a₁-b₁)² + (a₂-b₂)², is |a|² - 2·(a·b) + |b|²: a ring identity on the reals, which holds on the
  extended reals exactly where every coordinate is a real number (on infinities the expanded form would meet ∞ - ∞).

  A minimum over 16384 candidates taken in 16 consecutive chunks of 1024 — a running minimum, started at +∞, that
  absorbs each chunk's own minimum (itself started at +∞) — is the minimum over all 16384 at once: both are the
  greatest lower bound of the same family, which the universal property of `min` says in one line each.

  The specification: for x, y : [16384, 3], `nearest x y i` is the least squared distance from row i of x to a row of
  y, and `total x y` the sum of these over i, accumulated from zero.
-/
import Idealize.ShloMosaic.PureOps.Ideal.Laws
import Idealize.ShloMosaic.Lib.ValueIdx

noncomputable section

open scoped BigOperators

namespace Cert.NearestSq

open Idealize.ShloMosaic Idealize.ShloMosaic.ValueIdx

/-! ## The three literals -/

/-- The pattern of +∞ is the top extended real. -/
theorem top_f32 : Ideal.ofBits .f32 0x7F800000#32 = ⊤ := by simp [Ideal.ofBits, Ideal.ieee]

/-- The pattern of 2.0 is the real number 2. -/
theorem two_f32 : Ideal.ofBits .f32 0x40000000#32 = ((2 : ℝ) : EReal) := by
  simp [Ideal.ofBits, Ideal.ieee, -EReal.coe_mul]; norm_num

/-! ## The squared distance, two ways -/

/-- On real coordinates: the coordinatewise sum of squared differences, accumulated from zero, is
    |a|² - 2·(a·b) + |b|², each of the three sums accumulated from zero. -/
theorem sq_expand (a0 a1 a2 b0 b1 b2 : ℝ) :
    (((0 : EReal) + ((a0 : EReal) - b0) * ((a0 : EReal) - b0)) + ((a1 : EReal) - b1) * ((a1 : EReal) - b1))
        + ((a2 : EReal) - b2) * ((a2 : EReal) - b2)
      = (((0 : EReal) + ((a0 : EReal) * a0 + (a1 : EReal) * a1 + (a2 : EReal) * a2))
          - ((2 : ℝ) : EReal) * ((a0 : EReal) * b0 + (a1 : EReal) * b1 + (a2 : EReal) * b2))
        + ((0 : EReal) + ((b0 : EReal) * b0 + (b1 : EReal) * b1 + (b2 : EReal) * b2)) := by
  rw [← EReal.coe_zero]
  simp only [← EReal.coe_sub, ← EReal.coe_mul, ← EReal.coe_add]
  exact congrArg _ (by ring)

/-! ## A minimum taken chunk by chunk -/

/-- A fold of `min` from +∞ is the greatest lower bound of its family. -/
theorem le_foldMin_iff {ι : Type*} (s : Finset ι) (f : ι → EReal) (z : EReal) :
    z ≤ s.fold min ⊤ f ↔ ∀ i ∈ s, z ≤ f i := by
  rw [Finset.le_fold_min]; exact ⟨fun h => h.2, fun h => ⟨le_top, h⟩⟩

/-- Sixteen chunks of 1024: a running minimum from +∞ over the chunks' minima is the minimum over all 16384. -/
theorem chunked_min_eq (f : Fin 16384 → EReal) (acc : ℕ → EReal) (h0 : acc 0 = ⊤)
    (hs : ∀ k (hk : k < 16), acc (k + 1)
      = min (acc k) ((Finset.univ : Finset (Fin 1024)).fold min ⊤ fun j => f ⟨1024 * k + j.val, by have := j.isLt; omega⟩)) :
    acc 16 = (Finset.univ : Finset (Fin 16384)).fold min ⊤ f := by
  refine eq_of_forall_le_iff fun z => ?_
  have inv : ∀ n, n ≤ 16 → (z ≤ acc n ↔ ∀ j : Fin 16384, j.val < 1024 * n → z ≤ f j) := by
    intro n
    induction n with
    | zero => intro _; rw [h0]; exact ⟨fun _ j hj => absurd hj (by omega), fun _ => le_top⟩
    | succ n ih =>
      intro hn
      rw [hs n (by omega), le_min_iff, ih (by omega), le_foldMin_iff]
      constructor
      · rintro ⟨h1, h2⟩ j hj
        by_cases hlt : j.val < 1024 * n
        · exact h1 j hlt
        · have hj' := j.isLt
          have := h2 ⟨j.val - 1024 * n, by omega⟩ (Finset.mem_univ _)
          have e : (⟨1024 * n + (j.val - 1024 * n), by omega⟩ : Fin 16384) = j := Fin.ext (by dsimp only; omega)
          rw [e] at this
          exact this
      · intro h
        exact ⟨fun j hj => h j (by omega), fun j _ => h _ (by dsimp only; have := j.isLt; omega)⟩
  rw [inv 16 le_rfl, le_foldMin_iff]
  exact ⟨fun h j _ => h j (by have := j.isLt; omega), fun h j _ => h j (Finset.mem_univ _)⟩

/-! ## The specification -/

/-- The point arrays' shape, the per-row results' and the scalar's. -/
abbrev Pts : Shape := ⟨2, ![16384, 3]⟩
abbrev Rows : Shape := ⟨1, ![16384]⟩
abbrev Scl : Shape := ⟨0, ![]⟩

/-- Three squared differences added to zero in coordinate order. -/
def csq (u0 u1 u2 w0 w1 w2 : EReal) : EReal :=
  (((0 : EReal) + (u0 - w0) * (u0 - w0)) + (u1 - w1) * (u1 - w1)) + (u2 - w2) * (u2 - w2)

/-- The squared distance from row `i` of `x` to row `j` of `y`. -/
def sqd (x y : FVec Ideal Pts .f32) (i j : Fin 16384) : EReal :=
  csq (x (ix2 i (0 : Fin 3))) (x (ix2 i (1 : Fin 3))) (x (ix2 i (2 : Fin 3)))
    (y (ix2 j (0 : Fin 3))) (y (ix2 j (1 : Fin 3))) (y (ix2 j (2 : Fin 3)))

/-- The same distance expanded: |xᵢ|² - 2·(xᵢ·yⱼ) + |yⱼ|², the squared norms accumulated from zero. -/
def expanded (x y : FVec Ideal Pts .f32) (i j : Fin 16384) : EReal :=
  (((0 : EReal) + ∑ k : Fin 3, x (ix2 i k) * x (ix2 i k))
      - ((2 : ℝ) : EReal) * ∑ k : Fin 3, x (ix2 i k) * y (ix2 j k))
    + ((0 : EReal) + ∑ k : Fin 3, y (ix2 j k) * y (ix2 j k))

/-- Where every coordinate is a real number the two agree. -/
theorem expanded_eq_sqd (x y : FVec Ideal Pts .f32) (hx : ∀ i, ∃ r : ℝ, x i = r) (hy : ∀ i, ∃ r : ℝ, y i = r)
    (i j : Fin 16384) : expanded x y i j = sqd x y i j := by
  obtain ⟨a0, e0⟩ := hx (ix2 i (0 : Fin 3)); obtain ⟨a1, e1⟩ := hx (ix2 i (1 : Fin 3)); obtain ⟨a2, e2⟩ := hx (ix2 i (2 : Fin 3))
  obtain ⟨b0, f0⟩ := hy (ix2 j (0 : Fin 3)); obtain ⟨b1, f1⟩ := hy (ix2 j (1 : Fin 3)); obtain ⟨b2, f2⟩ := hy (ix2 j (2 : Fin 3))
  unfold expanded sqd csq
  simp only [Fin.sum_univ_three]
  rw [e0, e1, e2, f0, f1, f2]
  exact (sq_expand a0 a1 a2 b0 b1 b2).symm

/-- The least squared distance from row `i` of `x` to the rows of `y`. -/
def nearest (x y : FVec Ideal Pts .f32) : FVec Ideal Rows .f32 :=
  fun i => (Finset.univ : Finset (Fin 16384)).fold min ⊤ fun j => sqd x y (i 0) j

/-- Their sum over the rows of `x`, accumulated from zero. -/
def total (x y : FVec Ideal Pts .f32) : FVec Ideal Scl .f32 :=
  fun _ => (0 : EReal) + ∑ i : Rows.Idx, nearest x y i

end Cert.NearestSq

end
-- ==== Proof.Finite.lean ====
/-
  From the precondition to real numbers. The precondition says of each input array that every entry's absolute value is
  strictly below +∞; an extended real with that property is neither infinity, hence a real number.
-/
import proofs.«162012_j39470749450747_2_alg».proof.Pre_finite_inputs
import Idealize.ShloMosaic.Lib.ReduceAll
import Idealize.ShloMosaic.Lib.ValueIdx
import Idealize.ShloMosaic.PureOps.Ideal

noncomputable section

namespace Cert.NearestSq.Finite

open Idealize.ShloMosaic Cert.Pre_finite_inputs

/-- An extended real whose absolute value (the larger of itself and its negation) is below +∞ is a real number. -/
theorem real_of_abs_lt_top (x : EReal) (h : max x (-x) < ⊤) : ∃ r : ℝ, x = r := by
  induction x using EReal.rec with
  | bot => simp at h
  | coe r => exact ⟨r, rfl⟩
  | top => simp at h

/-- The scalar shape has one index. -/
instance : Subsingleton S_.Idx := ⟨fun a b => funext fun d => d.elim0⟩

variable [Facts]

/-- One entry of the comparison "|x| < +∞" being true says the entry is a real number. -/
theorem elem_real (x : FVec Ideal S16384x3 .f32) (i : S16384x3.Idx)
    (h : cmpf .olt (Host.absf x) (broadcastInDim S16384x3 ![] Facts.bcast_S_S16384x3 (constant S_ .f32 0x7F800000#32)) i = 1#1) :
    ∃ r : ℝ, x i = r := by
  apply real_of_abs_lt_top
  have h' : Ideal.cmp .olt (max (x i) (-(x i))) (Ideal.ofBits .f32 0x7F800000#32) = 1#1 := h
  rw [show Ideal.ofBits .f32 0x7F800000#32 = ⊤ by simp [Ideal.ofBits, Ideal.ieee]] at h'
  simp only [Ideal.cmp] at h'
  by_contra hn
  rw [decide_eq_false hn] at h'
  exact absurd h' (by decide)

/-- The precondition, read: every entry of both inputs is a real number. -/
theorem reals_of_pre (x y : FVec Ideal S16384x3 .f32) (h : fn (F := Ideal) x y = fun _ => 1#1) :
    (∀ i, ∃ r : ℝ, x i = r) ∧ (∀ i, ∃ r : ℝ, y i = r) := by
  have h0 := congrFun h ValueIdx.ix0
  dsimp only [fn] at h0
  obtain ⟨hx, hy⟩ := IntOp.andi_eq_one.1 h0
  exact ⟨fun i => elem_real x i (Host.reduce_andi_all _ _ _ _ _ hx i),
    fun i => elem_real y i (Host.reduce_andi_all _ _ _ _ _ hy i)⟩

end Cert.NearestSq.Finite

end
-- ==== Proof.RefValue.lean ====
/-
  The reference, read index by index. Its [16384, 16384] table holds at (i, j) the expanded squared distance
  |xᵢ|² - 2·(xᵢ·yⱼ) + |yⱼ|² (two row sums of squares, one matrix product against the transposed y, a doubling); its
  row minimum from +∞ is the least of these over j; its scalar result their sum over i from zero. On real inputs the
  expanded form is the coordinatewise squared distance, so the two results are `nearest` and `total`.
-/
import proofs.«162012_j39470749450747_2_alg».proof.Proof.Gen.ReferenceIdeal.Run
import proofs.«162012_j39470749450747_2_alg».proof.Proof.Gen.ReferenceIdeal.Read
import proofs.«162012_j39470749450747_2_alg».proof.Proof.NearestSq
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic
  Idealize.ShloMosaic.ValueIdx Cert.NearestSq

/-- The table at (i, j) is the expanded squared distance between row i of x and row j of y. -/
theorem table_apply (x y : (⟨S16384x3, .f32⟩ : BufTy).Contents (Elt Ideal)) (i j : Fin 16384) :
    val_main_v13 (F := Ideal) x y (ix2 i j) = expanded x y i j := by
  have e1 : ∀ k : Fin 3, idx_main_v1 (idx_main_v4 (idx_main_v9 (ix2 i j))) k = ix2 i k := fun k =>
    funext fun a => by match a with | ⟨0, _⟩ => rfl | ⟨1, _⟩ => rfl
  have e2 : ∀ k : Fin 3, lidx_main_v6 (ix2 i j) k = ix2 i k := fun k =>
    funext fun a => by match a with | ⟨0, _⟩ => rfl | ⟨1, _⟩ => rfl
  have e3 : ∀ k : Fin 3, idx_main_v5 (ridx_main_v6 (ix2 i j) k) = ix2 j k := fun k =>
    funext fun a => by match a with | ⟨0, _⟩ => rfl | ⟨1, _⟩ => rfl
  have e4 : ∀ k : Fin 3, idx_main_v3 (idx_main_v11 (idx_main_v12 (ix2 i j))) k = ix2 j k := fun k =>
    funext fun a => by match a with | ⟨0, _⟩ => rfl | ⟨1, _⟩ => rfl
  rw [val_main_v13_apply, val_main_v10_apply, val_main_v9_apply, val_main_v4_apply, val_main_v1_apply,
    val_main_v8_apply, val_main_v7_apply, val_main_v6_apply, val_main_v12_apply, val_main_v11_apply, val_main_v3_apply]
  simp only [val_main_v0_apply, val_main_v2_apply, val_main_v5_apply, val_main_cst_apply, val_main_cst_0_apply,
    val_main_cst_1_apply, e1, e2, e3, e4, Ideal.addf_def, Ideal.subf_def, Ideal.mulf_def, Ideal.ofBits_def,
    Ideal.ofBits_zero_f32, two_f32]
  rfl

/-- The reduction's witness at the table's literal shapes, and the index it inserts. -/
theorem reduces_table : S16384x16384.Reduces [1] S16384 := by decide

theorem lift_table (n j : Fin 16384) : reduces_table.lift (ix1 n) j = ix2 n j :=
  funext fun a => Fin.ext (by match a with | ⟨0, _⟩ => rfl | ⟨1, _⟩ => rfl)

/-- On real inputs the row minima are the least squared distances. -/
theorem nearest_eq (x y : (⟨S16384x3, .f32⟩ : BufTy).Contents (Elt Ideal))
    (hx : ∀ i, ∃ r : ℝ, x i = r) (hy : ∀ i, ∃ r : ℝ, y i = r) :
    val_main_v14 (F := Ideal) x y = nearest x y := by
  funext i
  obtain ⟨n, rfl⟩ : ∃ n : Fin 16384, i = ix1 n := ⟨i 0, eq_ix1 i⟩
  unfold val_main_v14
  refine (Host.reduce_eq_fold_single (α := EReal) (FloatOps.minimumf (F := Ideal) (φ := .f32))
    (val_main_v13 (F := Ideal) x y) (val_main_cst_2 (F := Ideal))
    reducesTo_S16384x16384_S16384_d1 reduces_table h_S_ (ix1 n)).trans ?_
  have hfun : (val_main_v13 (F := Ideal) x y ∘ reduces_table.lift (ix1 n)) = fun j : Fin 16384 => sqd x y n j :=
    funext fun j => by
      exact (congrArg (val_main_v13 (F := Ideal) x y) (lift_table n j)).trans
        ((table_apply x y n j).trans (expanded_eq_sqd x y hx hy n j))
  rw [hfun, val_main_cst_2_apply]
  show Finset.fold min (Ideal.ofBits .f32 0x7F800000#32) (fun j : Fin 16384 => sqd x y n j) Finset.univ = _
  rw [top_f32]
  rfl

/-- … and the scalar their sum from zero. -/
theorem total_eq (x y : (⟨S16384x3, .f32⟩ : BufTy).Contents (Elt Ideal))
    (hx : ∀ i, ∃ r : ℝ, x i = r) (hy : ∀ i, ∃ r : ℝ, y i = r) :
    val_main_v15 (F := Ideal) x y = total x y := by
  funext i
  rw [val_main_v15_apply, nearest_eq x y hx hy, val_main_cst_3_apply]
  show Ideal.ofBits .f32 0x00000000#32 + _ = _
  rw [Ideal.ofBits_zero_f32]
  rfl

end Cert.ReferenceIdeal.RefValue

end
-- ==== Proof.KernelBody.lean ====
/-
  The kernel body's arithmetic, read at an index (at the extended reals).

  One trip of the body's loop takes a [3, 1024] chunk of the transposed candidates and the three [1024, 1] coordinate
  columns of the 1024 query rows, forms the [1024, 1024] table of squared distances (three squared differences added to
  zero), takes each row's minimum from +∞, and absorbs it into the carried [1024, 1] running minimum. After the loop the
  column is transposed to a [1, 1024] row and given a leading unit axis.
-/
import proofs.«162012_j39470749450747_2_alg».proof.Proof.Gen.KernelIdeal.Skeleton
import proofs.«162012_j39470749450747_2_alg».proof.Proof.NearestSq
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.NearestSq

/-! ## Two layout operations at an index -/

section Layout
variable {α : Type}

/-- A [1024, 1] column broadcast to [1024, 1024] reads, at (p, q), the column at p. -/
theorem bcast_col (v : (⟨2, ![1024, 1]⟩ : Shape).Idx → α) (h : (⟨2, ![1024, 1]⟩ : Shape).Broadcasts ⟨2, ![1024, 1024]⟩)
    (p q : Fin 1024) : broadcastTo ⟨2, ![1024, 1024]⟩ v h (ix2 p q) = v (ix2 p (0 : Fin 1)) := by
  refine broadcastTo_apply v h (ix2 p q) (ix2 p (0 : Fin 1)) fun ax => ?_
  match ax with
  | ⟨0, _⟩ => show p.val = if (1024 : ℕ) = 1 then 0 else p.val; rw [if_neg (by decide)]
  | ⟨1, _⟩ => show 0 = if (1 : ℕ) = 1 then 0 else q.val; rw [if_pos rfl]

/-- A [1024] vector cast to a [1024, 1] column reads, at (p, u), the vector at p. -/
theorem cast_col (x : (⟨1, ![1024]⟩ : Shape).Idx → α) (h : (⟨1, ![1024]⟩ : Shape).ShapeCasts ⟨2, ![1024, 1]⟩)
    (p : Fin 1024) (u : Fin 1) : shapeCast ⟨2, ![1024, 1]⟩ x h (ix2 p u) = x (ix1 p) :=
  shapeCast_apply x h _ _ (by
    have hu : u.val = 0 := by omega
    rw [Shape.rowMajor_val_two, Shape.rowMajor_val_one]
    show p.val = p.val * 1 + u.val
    omega)

end Layout

/-! ## After the loop: the column laid out as the output block -/

/-- The stored block at (0, 0, r) is the running-minimum column at r. -/
theorem pay3_apply {F : FTy → Type} [FloatOps F] (v2 : FVec F S1024x1 .f32) (r : Fin 1024) :
    k0_pay3 (F := F) v2 (ix3 (0 : Fin 1) (0 : Fin 1) r) = v2 (ix2 r (0 : Fin 1)) := by
  unfold k0_pay3
  refine (shapeCast_ab_1ab_apply _ _ (0 : Fin 1) (0 : Fin 1) r).trans ?_
  exact transpose_ix2_apply _ _ (0 : Fin 1) r

/-! ## One trip: the table of squared distances and its row minima -/

/-- One coordinate's table: the query column minus one row of the chunk, squared. -/
def sqTerm (off : Fin 2 → ℕ) (hs : S3x1024.Slices off S1x1024) (v9 : FVec Ideal S3x1024 .f32)
    (col : FVec Ideal S1024x1 .f32) : FVec Ideal S1024x1024 .f32 :=
  mulf
    (subf (broadcastTo S1024x1024 col broadcasts_S1024x1_S1024x1024)
      (broadcastTo S1024x1024 (extractStridedSlice S1x1024 off (shapeCast S3x1024 v9 shapeCasts_S3x1024_S3x1024) hs)
        broadcasts_S1x1024_S1024x1024))
    (subf (broadcastTo S1024x1024 col broadcasts_S1024x1_S1024x1024)
      (broadcastTo S1024x1024 (extractStridedSlice S1x1024 off (shapeCast S3x1024 v9 shapeCasts_S3x1024_S3x1024) hs)
        broadcasts_S1x1024_S1024x1024))

/-- The trip's table: the three coordinates' tables added to a zero table in order. -/
def table (v9 : FVec Ideal S3x1024 .f32) (v12 v19 v26 : FVec Ideal S1024x1 .f32) : FVec Ideal S1024x1024 .f32 :=
  addf (addf (addf (broadcast S1024x1024 (Scalar.ofBits (F := Ideal) .f32 0x00000000#32))
      (sqTerm ![0, 0] slices_S3x1024_o0_0_S1x1024 v9 v12))
      (sqTerm ![1, 0] slices_S3x1024_o1_0_S1x1024 v9 v19))
      (sqTerm ![2, 0] slices_S3x1024_o2_0_S1x1024 v9 v26)

/-- The trip's payload, restated over the table. -/
theorem pay2_eq (acc : FVec Ideal S1024x1 .f32) (v9 : Vec Ideal S3x1024 .f32) (v12 v19 v26 : Vec Ideal S1024x1 .f32) :
    k0_pay2 (F := Ideal) acc v9 v12 v19 v26
      = minimumf acc (shapeCast S1024x1
          (multiReduction (F := Ideal) .minimumf [1] S1024 (table v9 v12 v19 v26) 0x7F800000#32 reduces_S1024x1024_S1024 (.inl rfl) rfl)
          shapeCasts_S1024_S1024x1) := rfl

/-- One coordinate's table at (r, q). -/
theorem sqTerm_apply (o : ℕ) (d : Fin 3) (hd : d.val = o) (hs : S3x1024.Slices ![o, 0] S1x1024)
    (v9 : FVec Ideal S3x1024 .f32) (col : FVec Ideal S1024x1 .f32) (r q : Fin 1024) :
    sqTerm ![o, 0] hs v9 col (ix2 r q)
      = (col (ix2 r (0 : Fin 1)) - v9 (ix2 d q)) * (col (ix2 r (0 : Fin 1)) - v9 (ix2 d q)) := by
  have e1 : broadcastTo S1024x1024 col broadcasts_S1024x1_S1024x1024 (ix2 r q) = col (ix2 r (0 : Fin 1)) :=
    bcast_col col _ r q
  have e2 : broadcastTo S1024x1024 (extractStridedSlice S1x1024 ![o, 0] (shapeCast S3x1024 v9 shapeCasts_S3x1024_S3x1024) hs)
      broadcasts_S1x1024_S1024x1024 (ix2 r q) = v9 (ix2 d q) := by
    refine (broadcastTo_1b_ab_apply _ _ r q).trans ?_
    refine (slice2_axis0_apply o _ hs (0 : Fin 1) q d (by rw [hd]; rfl)).trans ?_
    rw [shapeCast_self]
  show (broadcastTo S1024x1024 col broadcasts_S1024x1_S1024x1024 (ix2 r q)
      - broadcastTo S1024x1024 (extractStridedSlice S1x1024 ![o, 0] (shapeCast S3x1024 v9 shapeCasts_S3x1024_S3x1024) hs)
          broadcasts_S1x1024_S1024x1024 (ix2 r q))
    * (broadcastTo S1024x1024 col broadcasts_S1024x1_S1024x1024 (ix2 r q)
      - broadcastTo S1024x1024 (extractStridedSlice S1x1024 ![o, 0] (shapeCast S3x1024 v9 shapeCasts_S3x1024_S3x1024) hs)
          broadcasts_S1x1024_S1024x1024 (ix2 r q)) = _
  rw [e1, e2]

/-- The table at (r, q): the squared distance between query row r and the chunk's candidate q. -/
theorem table_apply (v9 : FVec Ideal S3x1024 .f32) (v12 v19 v26 : FVec Ideal S1024x1 .f32) (r q : Fin 1024) :
    table v9 v12 v19 v26 (ix2 r q)
      = csq (v12 (ix2 r (0 : Fin 1))) (v19 (ix2 r (0 : Fin 1))) (v26 (ix2 r (0 : Fin 1)))
          (v9 (ix2 (0 : Fin 3) q)) (v9 (ix2 (1 : Fin 3) q)) (v9 (ix2 (2 : Fin 3) q)) := by
  show ((Ideal.ofBits .f32 0x00000000#32 + sqTerm ![0, 0] slices_S3x1024_o0_0_S1x1024 v9 v12 (ix2 r q))
      + sqTerm ![1, 0] slices_S3x1024_o1_0_S1x1024 v9 v19 (ix2 r q))
      + sqTerm ![2, 0] slices_S3x1024_o2_0_S1x1024 v9 v26 (ix2 r q) = _
  rw [sqTerm_apply 0 (0 : Fin 3) rfl, sqTerm_apply 1 (1 : Fin 3) rfl, sqTerm_apply 2 (2 : Fin 3) rfl,
    Ideal.ofBits_zero_f32]
  rfl

/-- The index a row reduction inserts. -/
theorem lift_row (r q : Fin 1024) : reduces_S1024x1024_S1024.lift (ix1 r) q = ix2 r q :=
  funext fun a => Fin.ext (by match a with | ⟨0, _⟩ => rfl | ⟨1, _⟩ => rfl)

/-- The trip's payload at row r: the carried minimum there against the least squared distance to the chunk. -/
theorem pay2_apply (acc : FVec Ideal S1024x1 .f32) (v9 : Vec Ideal S3x1024 .f32) (v12 v19 v26 : Vec Ideal S1024x1 .f32)
    (r : Fin 1024) :
    k0_pay2 (F := Ideal) acc v9 v12 v19 v26 (ix2 r (0 : Fin 1))
      = min (acc (ix2 r (0 : Fin 1))) ((Finset.univ : Finset (Fin 1024)).fold min ⊤ fun q =>
          csq (v12 (ix2 r (0 : Fin 1))) (v19 (ix2 r (0 : Fin 1))) (v26 (ix2 r (0 : Fin 1)))
            (v9 (ix2 (0 : Fin 3) q)) (v9 (ix2 (1 : Fin 3) q)) (v9 (ix2 (2 : Fin 3) q))) := by
  rw [pay2_eq]
  refine congrArg (min (acc (ix2 r (0 : Fin 1)))) ?_
  refine (cast_col _ _ r (0 : Fin 1)).trans ?_
  refine (multiReduction_minimumf_eq_fold (F := Ideal) _ _ reduces_S1024x1024_S1024 _ _ (ix1 r)).trans ?_
  refine (reduces_S1024x1024_S1024.fold_filter_drop_single _ _ _ (ix1 r)).trans ?_
  have hf : (table v9 v12 v19 v26 ∘ reduces_S1024x1024_S1024.lift (ix1 r))
      = fun q : Fin 1024 => csq (v12 (ix2 r (0 : Fin 1))) (v19 (ix2 r (0 : Fin 1))) (v26 (ix2 r (0 : Fin 1)))
            (v9 (ix2 (0 : Fin 3) q)) (v9 (ix2 (1 : Fin 3) q)) (v9 (ix2 (2 : Fin 3) q)) := funext fun q => by
    exact (congrArg (table v9 v12 v19 v26) (lift_row r q)).trans (table_apply v9 v12 v19 v26 r q)
  rw [hf, Ideal.ofBits_def, top_f32]
  rfl

end Cert.KernelIdeal.Body

end
-- ==== Proof.KernelValue.lean ====
/-
  The kernel's two results as functions of its two arguments (at the extended reals).

  Grid point t works on query rows 1024·t … 1024·t + 1023 against all 16384 candidates, held transposed as a
  [3, 16384] array. The body's loop carries a [1024, 1] column of running minima through sixteen chunks of 1024
  candidates; a chunked running minimum from +∞ is the minimum over all candidates, so the block the point writes
  back holds, at (0, 0, r), the least squared distance from query row 1024·t + r to any candidate. The sixteen blocks
  tile the [16, 1, 1024] output, whose row-major reshape is the [16384] result `nearest`; the scalar result is its
  sum from zero, `total`.
-/
import proofs.«162012_j39470749450747_2_alg».proof.Proof.Gen.KernelIdeal.Frame
import proofs.«162012_j39470749450747_2_alg».proof.Proof.KernelBody
import proofs.«162012_j39470749450747_2_alg».proof.Proof.NearestSq
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Body
  Idealize.ShloMosaic.ValueIdx Cert.NearestSq

/-! ## One trip's result, and the loop's -/

theorem trips_eq : k0_t1_loop.trips = 16 := by decide +kernel

section Body

theorem hz3 : (![0, 0, 0] : Fin 3 → Nat) = fun _ => 0 := funext fun a => by fin_cases a <;> rfl

/-- One trip's result: the trip's arithmetic applied to the carried column, the trip's chunk of the candidate block
    and the three coordinate columns of the query block. -/
theorem tripR_eq {F : FTy → Type} [FloatOps F] (𝒱 : Variants) (c : Dev nD) (bd : Option 𝒱.V) (i : grid0.Coords)
    (arg1 : Memref sig .tc .vmem S1024x3 .f32) (harg1 : arg1.IsWhole) (arg2 : Memref sig .tc .vmem S3x16384 .f32)
    (harg2 : arg2.IsWhole) (arg3 : Memref sig .tc .vmem S1x1x1024 .f32) (harg3 : arg3.IsWhole)
    (x0 : Vec F S1024x3 .f32) (x1 : Vec F S3x16384 .f32) (k : Fin k0_t1_loop.trips) (acc : FVec F S1024x1 .f32) :
    tripR_k0_t1 (F := F) 𝒱 c bd i arg1 harg1 arg2 harg2 arg3 harg3 (harg1.unread x0) (harg2.unread x1) k acc
      = k0_pay2 acc (View.ld x1 (Rect.unit (s := S3x16384) (k0_off1 k) S3x1024.size (k0_off1_inb k)))
          (View.ld x0 (Rect.unit (s := S1024x3) ![0, 0] S1024x1.size inb_S1024x3_S1024x1_0_0))
          (View.ld x0 (Rect.unit (s := S1024x3) ![0, 1] S1024x1.size inb_S1024x3_S1024x1_0_1))
          (View.ld x0 (Rect.unit (s := S1024x3) ![0, 2] S1024x1.size inb_S1024x3_S1024x1_0_2)) := by
  unfold tripR_k0_t1 trip_k0_t1
  dsimp only
  simp only [View.readAt_eq_ld, harg1.read_unread, harg2.read_unread]

/-- The chunk load at (d, q): coordinate d of candidate 1024·k + q. -/
theorem ld_chunk (x1 : Vec Ideal S3x16384 .f32) (k : Fin k0_t1_loop.trips) (d : Fin 3) (q : Fin 1024) (j : Fin 16384)
    (hj : j.val = 1024 * k.val + q.val) :
    View.ld x1 (Rect.unit (s := S3x16384) (k0_off1 k) S3x1024.size (k0_off1_inb k)) (ix2 d q) = x1 (ix2 d j) := by
  show x1 _ = x1 _
  congr 1
  funext a
  apply Fin.ext
  match a with
  | ⟨0, _⟩ => show k0_off1 k 0 + 1 * d.val = d.val; rw [k0_off1_eq]; show 0 + 1 * d.val = d.val; omega
  | ⟨1, _⟩ => show k0_off1 k 1 + 1 * q.val = j.val; rw [k0_off1_eq, hj]; show 1024 * k.val + 1 * q.val = _; omega

/-- A column load at (r, 0): coordinate d of query row r. -/
theorem ld_col (x0 : Vec Ideal S1024x3 .f32) (o : ℕ) (d : Fin 3) (hd : d.val = o)
    (inb : ∀ a, (![0, o] : Fin 2 → Nat) a + S1024x1.size a ≤ S1024x3.size a) (r : Fin 1024) :
    View.ld x0 (Rect.unit (s := S1024x3) ![0, o] S1024x1.size inb) (ix2 r (0 : Fin 1)) = x0 (ix2 r d) := by
  show x0 _ = x0 _
  congr 1
  funext a
  apply Fin.ext
  match a with
  | ⟨0, _⟩ => show 0 + 1 * r.val = r.val; omega
  | ⟨1, _⟩ => show o + 1 * 0 = d.val; omega

/-- The loop's result at row r: a running minimum from +∞ through sixteen chunks is the minimum over all
    candidates. -/
theorem loop_apply (𝒱 : Variants) (c : Dev nD) (bd : Option 𝒱.V) (i : grid0.Coords)
    (arg1 : Memref sig .tc .vmem S1024x3 .f32) (harg1 : arg1.IsWhole) (arg2 : Memref sig .tc .vmem S3x16384 .f32)
    (harg2 : arg2.IsWhole) (arg3 : Memref sig .tc .vmem S1x1x1024 .f32) (harg3 : arg3.IsWhole)
    (x0 : Vec Ideal S1024x3 .f32) (x1 : Vec Ideal S3x16384 .f32) (r : Fin 1024) :
    st_k0_t1 (F := Ideal) 𝒱 c bd i arg1 harg1 arg2 harg2 arg3 harg3 (harg1.unread x0) (harg2.unread x1)
        (k0_pay1 (F := Ideal)) 16 (ix2 r (0 : Fin 1))
      = (Finset.univ : Finset (Fin 16384)).fold min ⊤ fun j =>
          csq (x0 (ix2 r (0 : Fin 3))) (x0 (ix2 r (1 : Fin 3))) (x0 (ix2 r (2 : Fin 3)))
            (x1 (ix2 (0 : Fin 3) j)) (x1 (ix2 (1 : Fin 3) j)) (x1 (ix2 (2 : Fin 3) j)) := by
  refine chunked_min_eq _
    (fun n => st_k0_t1 (F := Ideal) 𝒱 c bd i arg1 harg1 arg2 harg2 arg3 harg3 (harg1.unread x0) (harg2.unread x1)
        (k0_pay1 (F := Ideal)) n (ix2 r (0 : Fin 1))) ?_ ?_
  · exact top_f32
  · intro k hk
    have hk' : k < k0_t1_loop.trips := by rw [trips_eq]; exact hk
    refine (congrFun (st_k0_t1_succ (F := Ideal) 𝒱 c bd i arg1 harg1 arg2 harg2 arg3 harg3 (harg1.unread x0) (harg2.unread x1)
      (k0_pay1 (F := Ideal)) ⟨k, hk'⟩) (ix2 r (0 : Fin 1))).trans ?_
    rw [tripR_eq, pay2_apply]
    refine congrArg (min _) (congrArg (fun f => Finset.fold min ⊤ f Finset.univ) (funext fun q => ?_))
    rw [ld_col x0 0 (0 : Fin 3) rfl, ld_col x0 1 (1 : Fin 3) rfl, ld_col x0 2 (2 : Fin 3) rfl,
      ld_chunk x1 ⟨k, hk'⟩ (0 : Fin 3) q ⟨1024 * k + q.val, by have := q.isLt; omega⟩ rfl,
      ld_chunk x1 ⟨k, hk'⟩ (1 : Fin 3) q ⟨1024 * k + q.val, by have := q.isLt; omega⟩ rfl,
      ld_chunk x1 ⟨k, hk'⟩ (2 : Fin 3) q ⟨1024 * k + q.val, by have := q.isLt; omega⟩ rfl]

/-- What the body leaves in the output block: the loop's result laid out as the block. -/
theorem out_eq {F : FTy → Type} [FloatOps F] (c : Dev nD) (i : grid0.Coords)
    (arg1 : Memref sig .tc .vmem S1024x3 .f32) (harg1 : arg1.IsWhole) (arg2 : Memref sig .tc .vmem S3x16384 .f32)
    (harg2 : arg2.IsWhole) (arg3 : Memref sig .tc .vmem S1x1x1024 .f32) (harg3 : arg3.IsWhole)
    (x0 : Vec F S1024x3 .f32) (x1 : Vec F S3x16384 .f32) :
    out0_A_2 (F := F) c i arg1 harg1 arg2 harg2 arg3 harg3 x0 x1
      = k0_pay3 (st_k0_t1 (F := F) Variants.none c none i arg1 harg1 arg2 harg2 arg3 harg3 (harg1.unread x0) (harg2.unread x1)
          (k0_pay1 (F := F)) k0_t1_loop.trips) := by
  unfold out0_A_2
  rw [View.read_writes_eq_canon _ _ _ (cover0_A_2 c i arg1 harg1 arg2 harg2 arg3 harg3 x0 x1)]
  unfold kernelRun0_A
  dsimp only
  sl_unfold_words
  rw [View.canon_unit_zero hz3]

/-- The body's output block at an index whose last coordinate is r: the least squared distance from the query
    block's row r to the candidate block's columns. -/
theorem out_apply (c : Dev nD) (i : grid0.Coords)
    (arg1 : Memref sig .tc .vmem S1024x3 .f32) (harg1 : arg1.IsWhole) (arg2 : Memref sig .tc .vmem S3x16384 .f32)
    (harg2 : arg2.IsWhole) (arg3 : Memref sig .tc .vmem S1x1x1024 .f32) (harg3 : arg3.IsWhole)
    (x0 : Vec Ideal S1024x3 .f32) (x1 : Vec Ideal S3x16384 .f32) (y : S1x1x1024.Idx) (r : Fin 1024) (hr : (y 2).val = r.val) :
    out0_A_2 (F := Ideal) c i arg1 harg1 arg2 harg2 arg3 harg3 x0 x1 y
      = (Finset.univ : Finset (Fin 16384)).fold min ⊤ fun j =>
          csq (x0 (ix2 r (0 : Fin 3))) (x0 (ix2 r (1 : Fin 3))) (x0 (ix2 r (2 : Fin 3)))
            (x1 (ix2 (0 : Fin 3) j)) (x1 (ix2 (1 : Fin 3) j)) (x1 (ix2 (2 : Fin 3) j)) := by
  obtain rfl : y = ix3 (0 : Fin 1) (0 : Fin 1) r := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => exact hr)
  rw [out_eq, pay3_apply, trips_eq]
  exact loop_apply Variants.none c none i arg1 harg1 arg2 harg2 arg3 harg3 x0 x1 r

end Body

/-! ## The arrays the region finds, and the blocks the windows cut from them -/

section Region

variable (m : (ℓ : Loc nD τ sig) → Buf (Elt Ideal) ℓ) (ρ : Dev nD → PrngReg)

/-- The two arguments on core `c`. -/
abbrev xarr (c : Dev nD) : FVec Ideal Pts .f32 := m ((c : Thread nD τ).loc main_arg0)
abbrev yarr (c : Dev nD) : FVec Ideal Pts .f32 := m ((c : Thread nD τ).loc main_arg1)

/-- The printed index maps over the grid: window 0 walks the query rows block by block, window 1 stays on the one
    block of the transposed candidates, window 2 walks the output's leading axis. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The host line before the region leaves the candidates transposed. -/
theorem V_v0 (c : Dev nD) :
    (V m c main_v0 : S3x16384.Idx → EReal) = transpose S3x16384 [1, 0] (yarr m c) transposes_S16384x3_S3x16384_1_0 := by
  show StableHlo.after hostOps0 (fun b => m (c, b)) (Proc.devRef .tc main_v0) = _
  after_results

/-- Point `t`'s query block: rows 1024·t + r of the first argument. -/
theorem iblk0_apply (c : Dev nD) (t : Fin cfg0.N) (r : Fin 1024) (d : Fin 3) (n : Fin 16384)
    (hn : n.val = 1024 * t.val + r.val) :
    (iblk m c 0 t : Vec Ideal S1024x3 .f32) (ix2 r d) = xarr m c (ix2 n d) := by
  unfold iblk
  rw [View.read_apply]
  show V m c main_arg0 _ = _
  rw [V_main_arg0]
  show m ((c : Thread nD τ).loc main_arg0) _ = m ((c : Thread nD τ).loc main_arg0) _
  congr 1
  funext a
  apply Fin.ext
  obtain ⟨e0, e1, -⟩ := idx_facts t
  match a with
  | ⟨0, _⟩ => show win0_0.index t (0 : Fin 2) * 1024 + 1 * r.val = n.val; rw [e0, hn]; omega
  | ⟨1, _⟩ => show win0_0.index t (1 : Fin 2) * 3 + 1 * d.val = d.val; rw [e1]; omega

/-- Every point's candidate block is the whole transposed array: entry (d, j) is coordinate d of candidate j. -/
theorem iblk1_apply (c : Dev nD) (t : Fin cfg0.N) (d : Fin 3) (j : Fin 16384) :
    (iblk m c 1 t : Vec Ideal S3x16384 .f32) (ix2 d j) = yarr m c (ix2 j d) := by
  unfold iblk
  rw [View.read_apply]
  show V m c main_v0 _ = _
  rw [V_v0]
  refine Eq.trans (congrArg _ ?_) (transpose_ix2_apply (yarr m c) transposes_S16384x3_S3x16384_1_0 d j)
  funext a
  apply Fin.ext
  obtain ⟨-, -, e2, e3, -⟩ := idx_facts t
  match a with
  | ⟨0, _⟩ => show win0_1.index t (0 : Fin 2) * 3 + 1 * d.val = d.val; rw [e2]; omega
  | ⟨1, _⟩ => show win0_1.index t (1 : Fin 2) * 16384 + 1 * j.val = j.val; rw [e3]; omega

/-! ## What a point writes back, and the array after the region -/

/-- `nearest` by a natural-number row (junk past the end, which no index reaches). -/
def nearestAt (x y : FVec Ideal Pts .f32) (n : ℕ) : EReal :=
  if h : n < 16384 then nearest x y (ix1 ⟨n, h⟩) else ⊤

/-- The output array as one function: entry (p, 0, r) is the result for query row 1024·p + r. -/
def G3 (x y : FVec Ideal Pts .f32) : FVec Ideal S16x1x1024 .f32 :=
  fun i => nearestAt x y (1024 * (i 0).val + (i 2).val)

/-- After point `t` the output's staging block holds, at (0, 0, r), the least squared distance from query row
    1024·t + r to the candidates. -/
theorem outsAt_apply (c : Dev nD) (t : Fin cfg0.N) (y : S1x1x1024.Idx) :
    outsAt0 m c t y = nearestAt (xarr m c) (yarr m c) (1024 * t.val + (y 2).val) := by
  have hN : cfg0.N = 16 := N_0
  have ht : t.val < 16 := hN ▸ t.isLt
  have hy : (y 2).val < 1024 := (y 2).isLt
  unfold outsAt0
  refine (out_apply c (grid0.coords t) (ms0_0 t) (hs0_0 t) (ms0_1 t) (hs0_1 t) (ms0_2 t) (hs0_2 t) (iblk m c 0 t) (iblk m c 1 t) y
    ⟨(y 2).val, hy⟩ rfl).trans ?_
  unfold nearestAt
  rw [dif_pos (show 1024 * t.val + (y 2).val < 16384 by omega)]
  unfold nearest sqd
  refine congrArg (fun f => Finset.fold min ⊤ f Finset.univ) (funext fun j => ?_)
  rw [iblk0_apply m c t ⟨(y 2).val, hy⟩ (0 : Fin 3) ⟨1024 * t.val + (y 2).val, by omega⟩ rfl,
    iblk0_apply m c t ⟨(y 2).val, hy⟩ (1 : Fin 3) ⟨1024 * t.val + (y 2).val, by omega⟩ rfl,
    iblk0_apply m c t ⟨(y 2).val, hy⟩ (2 : Fin 3) ⟨1024 * t.val + (y 2).val, by omega⟩ rfl,
    iblk1_apply m c t (0 : Fin 3) j, iblk1_apply m c t (1 : Fin 3) j, iblk1_apply m c t (2 : Fin 3) j]

/-- What point `t` writes back is block `t` of `G3`. -/
theorem flushed_eq (c : Dev nD) (t : Fin cfg0.N) :
    (dats m 0 c).flushed 2 t = ((cfg0.win 2).blk t).view.read (Elt Ideal) (G3 (xarr m c) (yarr m c)) := by
  show (cfg0.win 2).cut (grid0.coords t) ((dats m 0 c).after 2 t) = _
  rw [after0_2]
  funext j
  have hj0 : (j 0).val < 1 := (j 0).isLt
  have hj2 : (j 2).val < 1024 := (j 2).isLt
  obtain ⟨-, -, -, -, e4, e5, e6⟩ := idx_facts t
  show outsAt0 m c t ((cfg0.win 2).xinj (grid0.coords t) j) = G3 (xarr m c) (yarr m c) (((cfg0.win 2).blk t).view.emb j)
  rw [outsAt_apply]
  unfold G3
  refine congrArg (nearestAt (xarr m c) (yarr m c)) ?_
  show 1024 * t.val + (j 2).val
    = 1024 * (win0_2.index t (0 : Fin 3) * 1 + 1 * (j 0).val) + (win0_2.index t (2 : Fin 3) * 1024 + 1 * (j 2).val)
  rw [e4, e6]
  omega

/-- An index of the output array is in point `t`'s block iff each coordinate is in the block's range. -/
theorem mem_blk (t : Fin cfg0.N) (i : S16x1x1024.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v1).slice (win0_2.rect t)).set ↔ _
  rw [View.set_slice_whole, Rect.mem_set_unit]
  exact Iff.rfl

/-- The sixteen blocks tile the output: index (p, 0, r) lies in point p's block. -/
theorem cover (i : S16x1x1024.Idx) :
    ∃ t : Fin cfg0.N, (cfg0.win 2).flush t = true ∧ i ∈ ((cfg0.win 2).blk t).view.set := by
  have hN : cfg0.N = 16 := N_0
  have h0 : (i 0).val < 16 := (i 0).isLt
  have h1 : (i 1).val < 1 := (i 1).isLt
  have h2 : (i 2).val < 1024 := (i 2).isLt
  refine ⟨⟨(i 0).val, by rw [hN]; exact h0⟩, flush0_2 _, ?_⟩
  rw [mem_blk]
  obtain ⟨-, -, -, -, e4, e5, e6⟩ := idx_facts ⟨(i 0).val, by rw [hN]; exact h0⟩
  intro a
  match a with
  | ⟨0, _⟩ => show win0_2.index _ (0 : Fin 3) * 1 ≤ (i 0).val ∧ (i 0).val < win0_2.index _ (0 : Fin 3) * 1 + 1; rw [e4]; dsimp only; omega
  | ⟨1, _⟩ => show win0_2.index _ (1 : Fin 3) * 1 ≤ (i 1).val ∧ (i 1).val < win0_2.index _ (1 : Fin 3) * 1 + 1; rw [e5]; omega
  | ⟨2, _⟩ => show win0_2.index _ (2 : Fin 3) * 1024 ≤ (i 2).val ∧ (i 2).val < win0_2.index _ (2 : Fin 3) * 1024 + 1024; rw [e6]; omega

/-- So the output array ends holding `G3`. -/
theorem final (c : Dev nD) : (dats m 0 c).arrAt 2 cfg0.N = G3 (xarr m c) (yarr m c) :=
  (dats m 0 c).arrAt_eq_of_cover 2 (G3 (xarr m c) (yarr m c)) (fun t _ => flushed_eq m c t) cover

/-! ## The two host lines after the region -/

/-- The row-major reshape of `G3` to [16384] is `nearest`. -/
theorem reshape_G3 (x y : FVec Ideal Pts .f32) :
    shapeCast S16384 (G3 x y) shapeCasts_S16x1x1024_S16384 = nearest x y := by
  funext i
  obtain ⟨n, rfl⟩ : ∃ n : Fin 16384, i = ix1 n := ⟨i 0, eq_ix1 i⟩
  have hn : n.val < 16384 := n.isLt
  refine (shapeCast_apply (G3 x y) shapeCasts_S16x1x1024_S16384 (ix1 n)
    (ix3 (⟨n.val / 1024, by omega⟩ : Fin 16) (0 : Fin 1) (⟨n.val % 1024, by omega⟩ : Fin 1024)) ?_).trans ?_
  · rw [Shape.rowMajor_val_three, Shape.rowMajor_val_one]
    show (n.val / 1024 * 1 + 0) * 1024 + n.val % 1024 = n.val
    omega
  · show nearestAt x y (1024 * (n.val / 1024) + n.val % 1024) = _
    rw [show 1024 * (n.val / 1024) + n.val % 1024 = n.val by omega]
    unfold nearestAt
    rw [dif_pos hn]

/-- The sum of `nearest` from zero, as the host line computes it, is `total`. -/
theorem sum_nearest (x y : FVec Ideal Pts .f32) :
    Host.reduceAdd (F := Ideal) (nearest x y) (constant (F := Ideal) S_ .f32 0x00000000#32) reducesTo_S16384_S_d0 h_S_
      = total x y := by
  funext i
  simp only [Host.reduceAdd, Ideal.hostReduceAdd_def]
  refine (Ideal.hostReduceAdd_total reducesTo_S16384_S_d0 (fun b => b.elim0) (nearest x y) _ i).trans ?_
  show Ideal.ofBits .f32 0x00000000#32 + _ = _
  rw [Ideal.ofBits_zero_f32]
  rfl

/-- The output array as the lines after the region find it. -/
theorem tail_arr (c : Dev nD) :
    Pipeline.withArrays (cfgs 0).spec c (V0 m c) (fun w => (dats m 0 c).arrAt w (cfgs 0).N) (Proc.devRef .tc main_v1)
      = G3 (xarr m c) (yarr m c) :=
  (Pipeline.withArrays_arr spec0 launch0.win.arr_inj c _ _ 2).trans (final m c)

/-- The [16384] result after the lines that follow the region. -/
theorem tail_v2 (c : Dev nD) :
    Pipeline.afterTail₀ cfgs (dats m) 0 (V0 m) [hostOps1] c main_v2 = nearest (xarr m c) (yarr m c) := by
  unfold Pipeline.afterTail₀
  show StableHlo.after hostOps1 _ (Proc.devRef .tc main_v2) = _
  after_results
  rw [tail_arr]
  exact reshape_G3 _ _

/-- The scalar result after them. -/
theorem tail_v3 (c : Dev nD) :
    Pipeline.afterTail₀ cfgs (dats m) 0 (V0 m) [hostOps1] c main_v3 = total (xarr m c) (yarr m c) := by
  unfold Pipeline.afterTail₀
  show StableHlo.after hostOps1 _ (Proc.devRef .tc main_v3) = _
  after_results
  rw [tail_arr]
  show Host.reduceAdd (F := Ideal) (shapeCast S16384 (G3 (xarr m c) (yarr m c)) shapeCasts_S16x1x1024_S16384)
    (constant (F := Ideal) S_ .f32 0x00000000#32) reducesTo_S16384_S_d0 h_S_ = _
  rw [reshape_G3]
  exact sum_nearest _ _

/-! ## The run, read -/

/-- Every weakly fair execution ends with the scalar at `total`, the vector at `nearest`, the arguments unchanged. -/
theorem run : θ_run defs (onTc (τ := τ) (main (F := Ideal))) ⟨m, fun _ => 0, ρ⟩ fun r => ∀ c : Dev nD,
      r.2.mem ((c.tc : Thread nD τ).loc main_v3) = total (xarr m c) (yarr m c)
      ∧ r.2.mem ((c.tc : Thread nD τ).loc main_v2) = nearest (xarr m c) (yarr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_v3 m c),
      ((h c).2 main_v2 (Pipeline.mem_restRefs_of main_v2 (by decide) (by decide))).trans (tail_v2 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Region

end Cert.KernelIdeal.KValue

end
-- ==== Proof.lean ====
/-
  The certificate: the one-sided nearest-neighbour squared distance, computed two ways.

  The kernel takes, for each of 16384 query points of ℝ³, the minimum over 16384 candidate points of the squared
  distance (x₀-y₀)² + (x₁-y₁)² + (x₂-y₂)², chunk by chunk; the reference expands the square as
  |x|² - 2·(x·y) + |y|² (one matrix product) and takes the row minimum of the resulting table. On real inputs the two
  tables agree entry by entry (a ring identity; this is where finiteness of the inputs is used), a chunked running
  minimum from +∞ is the minimum, and both programs then sum the same 16384 minima from zero.
-/
import proofs.«162012_j39470749450747_2_alg».proof.Defs
import proofs.«162012_j39470749450747_2_alg».proof.Proof.Gen.Kernel
import proofs.«162012_j39470749450747_2_alg».proof.Proof.Gen.Kernel.Frame
import proofs.«162012_j39470749450747_2_alg».proof.Proof.Gen.KernelIdeal
import proofs.«162012_j39470749450747_2_alg».proof.Proof.Gen.KernelIdeal.Frame
import proofs.«162012_j39470749450747_2_alg».proof.Proof.Gen.ReferenceIdeal
import proofs.«162012_j39470749450747_2_alg».proof.Proof.Gen.ReferenceIdeal.Run
import proofs.«162012_j39470749450747_2_alg».proof.Proof.Gen.ReferenceIdeal.Read
import proofs.«162012_j39470749450747_2_alg».proof.Proof.Gen.Pre_finite_inputs
import proofs.«162012_j39470749450747_2_alg».proof.Proof.NearestSq
import proofs.«162012_j39470749450747_2_alg».proof.Proof.Finite
import proofs.«162012_j39470749450747_2_alg».proof.Proof.RefValue
import proofs.«162012_j39470749450747_2_alg».proof.Proof.KernelValue
import Idealize.ShloMosaic.Adequacy
import Idealize.ShloMosaic.Init

noncomputable section

namespace Cert.Proof

open Idealize.ShloMosaic Idealize.ShloMosaic.TcCoe Idealize.SL.Sem Cert.NearestSq

/-- The kernel as printed runs, its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both programs end with `total` and `nearest` of the same two arrays: the kernel by its chunked minimum of
    coordinatewise squared distances, the reference by the expanded square, equal on real inputs. -/
theorem algebraic : Cert.algebraic_KernelIdeal_ReferenceIdeal := by
  intro m ρ m' ρ' hpre hagree
  have hfin := fun c => Cert.NearestSq.Finite.reals_of_pre _ _ (hpre c)
  refine ⟨_, _, Cert.KernelIdeal.KValue.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v15_eq, (hagree c).1, (hagree c).2]
    exact Cert.ReferenceIdeal.RefValue.total_eq _ _ (hfin c).1 (hfin c).2
  · rw [Cert.ReferenceIdeal.Read.val_main_v14_eq, (hagree c).1, (hagree c).2]
    exact Cert.ReferenceIdeal.RefValue.nearest_eq _ _ (hfin c).1 (hfin c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
